-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S4x4x1x8 : Shape := ⟨4, ![4, 4, 1, 8]⟩
abbrev S512x1x8 : Shape := ⟨3, ![512, 1, 8]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel
  bcast_S_S4x4x1x8 : S_.BroadcastsInDim S4x4x1x8 (![] : Fin 0 → Fin S4x4x1x8.rank)
  reducesTo_S4x4x1x8_S_d0_1_2_3 : S4x4x1x8.ReducesTo [0, 1, 2, 3] S_
  bcast_S_S512x1x8 : S_.BroadcastsInDim S512x1x8 (![] : Fin 0 → Fin S512x1x8.rank)
  reducesTo_S512x1x8_S_d0_1_2 : S512x1x8.ReducesTo [0, 1, 2] S_

variable [Facts]

def fn_part1 {F : FTy → Type} [FloatOps F] (main_v13 : IVec S_ 1) (main_v16 : IVec S512x1x8 1) : IVec S_ 1 :=
  let main_c_5 : IVec S_ 1 := constantI S_ 1 1#1
  let main_v17 : IVec S_ 1 := (fun x v => Host.reduce IntOp.andi x v reducesTo_S512x1x8_S_d0_1_2 h_S_) main_v16 main_c_5
  let main_v18 : IVec S_ 1 := andi main_v13 main_v17
  main_v18

def fn {F : FTy → Type} [FloatOps F] (main_arg0 : FVec F S32x2048x64 .f32) (main_arg1 : FVec F S4x4x1x8 .f32) (main_arg2 : FVec F S512x1x8 .f32) (main_arg3 : FVec F S512x1x8 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S4x4x1x8 .f32 := Host.absf main_arg1
  let main_cst_0 : FVec F S_ .f32 := constant S_ .f32 0x7F800000#32
  let main_v5 : FVec F S4x4x1x8 .f32 := broadcastInDim S4x4x1x8 ![] bcast_S_S4x4x1x8 main_cst_0
  let main_v6 : IVec S4x4x1x8 1 := cmpf .olt main_v4 main_v5
  let main_c_1 : IVec S_ 1 := constantI S_ 1 1#1
  let main_v7 : IVec S_ 1 := (fun x v => Host.reduce IntOp.andi x v reducesTo_S4x4x1x8_S_d0_1_2_3 h_S_) main_v6 main_c_1
  let main_v8 : IVec S_ 1 := andi main_v3 main_v7
  let main_v9 : FVec F S512x1x8 .f32 := Host.absf main_arg2
  let main_cst_2 : FVec F S_ .f32 := constant S_ .f32 0x7F800000#32
  let main_v10 : FVec F S512x1x8 .f32 := broadcastInDim S512x1x8 ![] bcast_S_S512x1x8 main_cst_2
  let main_v11 : IVec S512x1x8 1 := cmpf .olt main_v9 main_v10
  let main_c_3 : IVec S_ 1 := constantI S_ 1 1#1
  let main_v12 : IVec S_ 1 := (fun x v => Host.reduce IntOp.andi x v reducesTo_S512x1x8_S_d0_1_2 h_S_) main_v11 main_c_3
  let main_v13 : IVec S_ 1 := andi main_v8 main_v12
  let main_v14 : FVec F S512x1x8 .f32 := Host.absf main_arg3
  let main_cst_4 : FVec F S_ .f32 := constant S_ .f32 0x7F800000#32
  let main_v15 : FVec F S512x1x8 .f32 := broadcastInDim S512x1x8 ![] bcast_S_S512x1x8 main_cst_4
  let main_v16 : IVec S512x1x8 1 := cmpf .olt main_v14 main_v15
  fn_part1 (F := F) main_v13 main_v16
-- ==== Kernel.lean ====
abbrev S32x2048x64 : Shape := ⟨3, ![32, 2048, 64]⟩
abbrev S4x4x1x8 : Shape := ⟨4, ![4, 4, 1, 8]⟩
abbrev S512x1x8 : Shape := ⟨3, ![512, 1, 8]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S512x512x1 : Shape := ⟨3, ![512, 512, 1]⟩
abbrev S512x512x1x8 : Shape := ⟨4, ![512, 512, 1, 8]⟩
abbrev S512x512x1x1 : Shape := ⟨4, ![512, 512, 1, 1]⟩
abbrev S512x512x8 : Shape := ⟨3, ![512, 512, 8]⟩
abbrev S8x512x512 : Shape := ⟨3, ![8, 512, 512]⟩
abbrev S8x512x512x4 : Shape := ⟨4, ![8, 512, 512, 4]⟩
abbrev S8x512x2048 : Shape := ⟨3, ![8, 512, 2048]⟩
abbrev S4x4x8 : Shape := ⟨3, ![4, 4, 8]⟩
abbrev S8x4x4 : Shape := ⟨3, ![8, 4, 4]⟩
abbrev S1x8x1x4x1x4 : Shape := ⟨6, ![1, 8, 1, 4, 1, 4]⟩
abbrev S1x8x1x4x512x4 : Shape := ⟨6, ![1, 8, 1, 4, 512, 4]⟩
abbrev S8x4x2048 : Shape := ⟨3, ![8, 4, 2048]⟩
abbrev S4x8x2048x2048 : Shape := ⟨4, ![4, 8, 2048, 2048]⟩
abbrev S1x256x512 : Shape := ⟨3, ![1, 256, 512]⟩
abbrev S1x4x512 : Shape := ⟨3, ![1, 4, 512]⟩
abbrev S4x1x1024x512 : Shape := ⟨4, ![4, 1, 1024, 512]⟩
abbrev S256x512 : Shape := ⟨2, ![256, 512]⟩
abbrev S4x512 : Shape := ⟨2, ![4, 512]⟩
abbrev S256x1x512 : Shape := ⟨3, ![256, 1, 512]⟩
abbrev S256x4x512 : Shape := ⟨3, ![256, 4, 512]⟩
abbrev S1024x512 : Shape := ⟨2, ![1024, 512]⟩
abbrev S1x1x1024x512 : Shape := ⟨4, ![1, 1, 1024, 512]⟩
abbrev S32x2048x2048 : Shape := ⟨3, ![32, 2048, 2048]⟩

abbrev nBuf : Space → Nat
  | .hbm => 55
  | .vmem => 6
  | .smem => 0
  | _ => 0

abbrev bufTy : (tb : Table) → Fin (tcTables nBuf tb) → BufTy
  | .hbm, ⟨0, _⟩ => ⟨S32x2048x64, .f32⟩
  | .hbm, ⟨1, _⟩ => ⟨S4x4x1x8, .f32⟩
  | .hbm, ⟨2, _⟩ => ⟨S512x1x8, .f32⟩
  | .hbm, ⟨3, _⟩ => ⟨S512x1x8, .f32⟩
  | .hbm, ⟨4, _⟩ => ⟨S512, .i32⟩
  | .hbm, ⟨5, _⟩ => ⟨S512x1, .i32⟩
  | .hbm, ⟨6, _⟩ => ⟨S512, .i32⟩
  | .hbm, ⟨7, _⟩ => ⟨S1x512, .i32⟩
  | .hbm, ⟨8, _⟩ => ⟨S512x512, .i32⟩
  | .hbm, ⟨9, _⟩ => ⟨S512x512, .i32⟩
  | .hbm, ⟨10, _⟩ => ⟨S512x512, .i32⟩
  | .hbm, ⟨11, _⟩ => ⟨S_, .i32⟩
  | .hbm, ⟨12, _⟩ => ⟨S_, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i1⟩
  | .hbm, ⟨18, _⟩ => ⟨S_, .i32⟩
  | .hbm, ⟨19, _⟩ => ⟨S512x512, .i32⟩
  | .hbm, ⟨20, _⟩ => ⟨S512x512, .i32⟩
  | .hbm, ⟨21, _⟩ => ⟨S512x512, .i32⟩
  | .hbm, ⟨22, _⟩ => ⟨S512x512x1, .i32⟩
  | .hbm, ⟨23, _⟩ => ⟨S512x512x1x8, .f32⟩
  | .hbm, ⟨24, _⟩ => ⟨S512x512, .i32⟩
  | .hbm, ⟨25, _⟩ => ⟨S_, .i32⟩
  | .hbm, ⟨26, _⟩ => ⟨S_, .i32⟩
  | .hbm, ⟨27, _⟩ => ⟨S512x512, .i32⟩
  | .hbm, ⟨28, _⟩ => ⟨S512x512, .i32⟩
  | .hbm, ⟨29, _⟩ => ⟨S_, .i32⟩
  | .hbm, ⟨30, _⟩ => ⟨S512x512, .i32⟩
  | .hbm, ⟨31, _⟩ => ⟨S512x512, .i1⟩
  | .hbm, ⟨32, _⟩ => ⟨S_, .i32⟩
  | .hbm, ⟨33, _⟩ => ⟨S512x512, .i32⟩
  | .hbm, ⟨34, _⟩ => ⟨S512x512, .i32⟩
  | .hbm, ⟨35, _⟩ => ⟨S512x512, .i32⟩
  | .hbm, ⟨36, _⟩ => ⟨S512x512x1, .i32⟩
  | .hbm, ⟨37, _⟩ => ⟨S512x512x1x8, .f32⟩
  | .hbm, ⟨38, _⟩ => ⟨S_, .i32⟩
  | .hbm, ⟨39, _⟩ => ⟨S512x512, .i32⟩
  | .hbm, ⟨40, _⟩ => ⟨S512x512, .i1⟩
  | .hbm, ⟨41, _⟩ => ⟨S512x512x1x1, .i1⟩
  | .hbm, ⟨42, _⟩ => ⟨S512x512x1x8, .i1⟩
  | .hbm, ⟨43, _⟩ => ⟨S512x512x1x8, .f32⟩
  | .hbm, ⟨44, _⟩ => ⟨S512x512x8, .f32⟩
  | .hbm, ⟨45, _⟩ => ⟨S8x512x512, .f32⟩
  | .hbm, ⟨46, _⟩ => ⟨S8x512x512x4, .f32⟩
  | .hbm, ⟨47, _⟩ => ⟨S8x512x2048, .f32⟩
  | .hbm, ⟨48, _⟩ => ⟨S4x4x8, .f32⟩
  | .hbm, ⟨49, _⟩ => ⟨S8x4x4, .f32⟩
  | .hbm, ⟨50, _⟩ => ⟨S1x8x1x4x1x4, .f32⟩
  | .hbm, ⟨51, _⟩ => ⟨S1x8x1x4x512x4, .f32⟩
  | .hbm, ⟨52, _⟩ => ⟨S8x4x2048, .f32⟩
  | .hbm, ⟨53, _⟩ => ⟨S4x8x2048x2048, .f32⟩
  | .hbm, ⟨54, _⟩ => ⟨S32x2048x2048, .f32⟩
  | .local _ .vmem, ⟨0, _⟩ => ⟨S1x256x512, .f32⟩
  | .local _ .vmem, ⟨1, _⟩ => ⟨S1x256x512, .f32⟩
  | .local _ .vmem, ⟨2, _⟩ => ⟨S1x4x512, .f32⟩
  | .local _ .vmem, ⟨3, _⟩ => ⟨S1x4x512, .f32⟩
  | .local _ .vmem, ⟨4, _⟩ => ⟨S4x1x1024x512, .f32⟩
  | .local _ .vmem, ⟨5, _⟩ => ⟨S4x1x1024x512, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_call1_v0 : Ref sig .tc := ⟨.hbm, 26, rfl⟩
abbrev main_call1_v1 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call2_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512_S512x512x1x1_0_1 : S512x512.BroadcastsInDim S512x512x1x1 (![0, 1] : Fin 2 → Fin S512x512x1x1.rank)
  bcast_S512x512x1x1_S512x512x1x8_0_1_2_3 : S512x512x1x1.BroadcastsInDim S512x512x1x8 (![0, 1, 2, 3] : Fin 4 → Fin S512x512x1x8.rank)
  shapeCasts_S512x512x1x8_S512x512x8 : S512x512x1x8.ShapeCasts S512x512x8
  transposes_S512x512x8_S8x512x512_2_0_1 : S512x512x8.Transposes [2, 0, 1] S8x512x512
  bcast_S8x512x512_S8x512x512x4_0_1_2 : S8x512x512.BroadcastsInDim S8x512x512x4 (![0, 1, 2] : Fin 3 → Fin S8x512x512x4.rank)
  shapeCasts_S8x512x512x4_S8x512x2048 : S8x512x512x4.ShapeCasts S8x512x2048
  shapeCasts_S4x4x1x8_S4x4x8 : S4x4x1x8.ShapeCasts S4x4x8
  transposes_S4x4x8_S8x4x4_2_0_1 : S4x4x8.Transposes [2, 0, 1] S8x4x4
  shapeCasts_S8x4x4_S1x8x1x4x1x4 : S8x4x4.ShapeCasts S1x8x1x4x1x4
  bcast_S1x8x1x4x1x4_S1x8x1x4x512x4_0_1_2_3_4_5 : S1x8x1x4x1x4.BroadcastsInDim S1x8x1x4x512x4 (![0, 1, 2, 3, 4, 5] : Fin 6 → Fin S1x8x1x4x512x4.rank)
  shapeCasts_S1x8x1x4x512x4_S8x4x2048 : S1x8x1x4x512x4.ShapeCasts S8x4x2048
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x4x512_S1x4x512_0_0_0 : ∀ a, (![0, 0, 0] : Fin 3 → Nat) a + S1x4x512.size a ≤ S1x4x512.size a
  h_S1x4x512 : 0 < S1x4x512.numel
  shapeCasts_S1x4x512_S4x512 : S1x4x512.ShapeCasts S4x512
  shapeCasts_S256x512_S256x1x512 : S256x512.ShapeCasts S256x1x512
  shapeCasts_S256x1x512_S256x1x512 : S256x1x512.ShapeCasts S256x1x512
  broadcasts_S256x1x512_S256x4x512 : S256x1x512.Broadcasts S256x4x512
  shapeCasts_S256x4x512_S1024x512 : S256x4x512.ShapeCasts S1024x512
  shapeCasts_S4x512_S1x4x512 : S4x512.ShapeCasts S1x4x512
  shapeCasts_S1x4x512_S1x4x512 : S1x4x512.ShapeCasts S1x4x512
  broadcasts_S1x4x512_S256x4x512 : S1x4x512.Broadcasts S256x4x512
  inb_S4x1x1024x512_S1x1x1024x512_0_0_0_0 : ∀ a, (![0, 0, 0, 0] : Fin 4 → Nat) a + S1x1x1024x512.size a ≤ S4x1x1024x512.size a
  h_S1x1x1024x512 : 0 < S1x1x1024x512.numel
  shapeCasts_S1x1x1024x512_S1024x512 : S1x1x1024x512.ShapeCasts S1024x512
  shapeCasts_S1024x512_S1x1x1024x512 : S1024x512.ShapeCasts S1x1x1024x512
  inb_S4x1x1024x512_S1x1x1024x512_1_0_0_0 : ∀ a, (![1, 0, 0, 0] : Fin 4 → Nat) a + S1x1x1024x512.size a ≤ S4x1x1024x512.size a
  inb_S4x1x1024x512_S1x1x1024x512_2_0_0_0 : ∀ a, (![2, 0, 0, 0] : Fin 4 → Nat) a + S1x1x1024x512.size a ≤ S4x1x1024x512.size a
  inb_S4x1x1024x512_S1x1x1024x512_3_0_0_0 : ∀ a, (![3, 0, 0, 0] : Fin 4 → Nat) a + S1x1x1024x512.size a ≤ S4x1x1024x512.size a
  shapeCasts_S4x8x2048x2048_S32x2048x2048 : S4x8x2048x2048.ShapeCasts S32x2048x2048
  gather_S512x1x8_S512x512x1_S512x512x1x8_23_0_n_n_0_2_118_wf : GatherDims.WF S512x1x8 S512x512x1 S512x512x1x8 [2, 3] [0] [] [0] [] 2 ![1, 1, 8]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S8x512x2048.size a
  hwx0_0 : ∀ i : grid0.Coords, EltTy.bits .f32 = 32 ∨ (Rect.block (s := S8x512x2048) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x512.size a ≤ S8x4x2048.size a
  hwx0_1 : ∀ i : grid0.Coords, EltTy.bits .f32 = 32 ∨ (Rect.block (s := S8x4x2048) S1x4x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x1024x512.size a ≤ S4x8x2048x2048.size a
  hwx0_2 : ∀ i : grid0.Coords, EltTy.bits .f32 = 32 ∨ (Rect.block (s := S4x8x2048x2048) S4x1x1024x512.size (cc0_transform_2 i) (hinb0_2 i)).WholeWords (EltTy.packing .f32)

variable [Facts₀]

def gather_S512x1x8_S512x512x1_S512x512x1x8_23_0_n_n_0_2_118 : GatherDims S512x1x8 S512x512x1 S512x512x1x8 where
  offsetDims := [2, 3]
  collapsedSliceDims := [0]
  operandBatchingDims := []
  startIndicesBatchingDims := []
  startIndexMap := [0]
  indexVectorDim := 2
  sliceSizes := ![1, 1, 8]
  wf := gather_S512x1x8_S512x512x1_S512x512x1x8_23_0_n_n_0_2_118_wf

abbrev win0_0 : Pipeline.Window sig grid0 :=
  Pipeline.Window.ofSpec (Memref.whole main_v31) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S1x4x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S4x1x1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S4x4x1x8 : Shape := ⟨4, ![4, 4, 1, 8]⟩
abbrev S512x1x8 : Shape := ⟨3, ![512, 1, 8]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S512x512x1 : Shape := ⟨3, ![512, 512, 1]⟩
abbrev S512x512x1x8 : Shape := ⟨4, ![512, 512, 1, 8]⟩
abbrev S512x512x1x1 : Shape := ⟨4, ![512, 512, 1, 1]⟩
abbrev S512x4x512x1x8 : Shape := ⟨5, ![512, 4, 512, 1, 8]⟩
abbrev S2048x512x1x8 : Shape := ⟨4, ![2048, 512, 1, 8]⟩
abbrev S2048x512x4x1x8 : Shape := ⟨5, ![2048, 512, 4, 1, 8]⟩
abbrev S2048x2048x1x8 : Shape := ⟨4, ![2048, 2048, 1, 8]⟩
abbrev S1x4x1x4x1x1x1x8 : Shape := ⟨8, ![1, 4, 1, 4, 1, 1, 1, 8]⟩
abbrev S512x4x512x4x1x1x1x8 : Shape := ⟨8, ![512, 4, 512, 4, 1, 1, 1, 8]⟩
abbrev S2048x2048x8 : Shape := ⟨3, ![2048, 2048, 8]⟩
abbrev S8x2048x2048 : Shape := ⟨3, ![8, 2048, 2048]⟩
abbrev S1x8x1x2048x1x2048 : Shape := ⟨6, ![1, 8, 1, 2048, 1, 2048]⟩
abbrev S4x8x1x2048x1x2048 : Shape := ⟨6, ![4, 8, 1, 2048, 1, 2048]⟩
abbrev S32x2048x2048 : Shape := ⟨3, ![32, 2048, 2048]⟩

abbrev nBuf : Space → Nat
  | .hbm => 57
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S4x4x1x8, .f32⟩
  | .hbm, ⟨2, _⟩ => ⟨S512x1x8, .f32⟩
  | .hbm, ⟨3, _⟩ => ⟨S512x1x8, .f32⟩
  | .hbm, ⟨4, _⟩ => ⟨S512, .i32⟩
  | .hbm, ⟨5, _⟩ => ⟨S512x1, .i32⟩
  | .hbm, ⟨6, _⟩ => ⟨S512, .i32⟩
  | .hbm, ⟨7, _⟩ => ⟨S1x512, .i32⟩
  | .hbm, ⟨8, _⟩ => ⟨S512x512, .i32⟩
  | .hbm, ⟨9, _⟩ => ⟨S512x512, .i32⟩
  | .hbm, ⟨10, _⟩ => ⟨S512x512, .i32⟩
  | .hbm, ⟨11, _⟩ => ⟨S_, .i32⟩
  | .hbm, ⟨12, _⟩ => ⟨S_, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i1⟩
  | .hbm, ⟨18, _⟩ => ⟨S_, .i32⟩
  | .hbm, ⟨19, _⟩ => ⟨S512x512, .i32⟩
  | .hbm, ⟨20, _⟩ => ⟨S512x512, .i32⟩
  | .hbm, ⟨21, _⟩ => ⟨S512x512, .i32⟩
  | .hbm, ⟨22, _⟩ => ⟨S512x512x1, .i32⟩
  | .hbm, ⟨23, _⟩ => ⟨S512x512x1x8, .f32⟩
  | .hbm, ⟨24, _⟩ => ⟨S512x512, .i32⟩
  | .hbm, ⟨25, _⟩ => ⟨S_, .i32⟩
  | .hbm, ⟨26, _⟩ => ⟨S_, .i32⟩
  | .hbm, ⟨27, _⟩ => ⟨S512x512, .i32⟩
  | .hbm, ⟨28, _⟩ => ⟨S512x512, .i32⟩
  | .hbm, ⟨29, _⟩ => ⟨S_, .i32⟩
  | .hbm, ⟨30, _⟩ => ⟨S512x512, .i32⟩
  | .hbm, ⟨31, _⟩ => ⟨S512x512, .i1⟩
  | .hbm, ⟨32, _⟩ => ⟨S_, .i32⟩
  | .hbm, ⟨33, _⟩ => ⟨S512x512, .i32⟩
  | .hbm, ⟨34, _⟩ => ⟨S512x512, .i32⟩
  | .hbm, ⟨35, _⟩ => ⟨S512x512, .i32⟩
  | .hbm, ⟨36, _⟩ => ⟨S512x512x1, .i32⟩
  | .hbm, ⟨37, _⟩ => ⟨S512x512x1x8, .f32⟩
  | .hbm, ⟨38, _⟩ => ⟨S_, .i32⟩
  | .hbm, ⟨39, _⟩ => ⟨S512x512, .i32⟩
  | .hbm, ⟨40, _⟩ => ⟨S512x512, .i1⟩
  | .hbm, ⟨41, _⟩ => ⟨S512x512x1x1, .i1⟩
  | .hbm, ⟨42, _⟩ => ⟨S512x512x1x8, .i1⟩
  | .hbm, ⟨43, _⟩ => ⟨S512x512x1x8, .f32⟩
  | .hbm, ⟨44, _⟩ => ⟨S512x4x512x1x8, .f32⟩
  | .hbm, ⟨45, _⟩ => ⟨S2048x512x1x8, .f32⟩
  | .hbm, ⟨46, _⟩ => ⟨S2048x512x4x1x8, .f32⟩
  | .hbm, ⟨47, _⟩ => ⟨S2048x2048x1x8, .f32⟩
  | .hbm, ⟨48, _⟩ => ⟨S1x4x1x4x1x1x1x8, .f32⟩
  | .hbm, ⟨49, _⟩ => ⟨S512x4x512x4x1x1x1x8, .f32⟩
  | .hbm, ⟨50, _⟩ => ⟨S2048x2048x1x8, .f32⟩
  | .hbm, ⟨51, _⟩ => ⟨S2048x2048x1x8, .f32⟩
  | .hbm, ⟨52, _⟩ => ⟨S2048x2048x8, .f32⟩
  | .hbm, ⟨53, _⟩ => ⟨S8x2048x2048, .f32⟩
  | .hbm, ⟨54, _⟩ => ⟨S1x8x1x2048x1x2048, .f32⟩
  | .hbm, ⟨55, _⟩ => ⟨S4x8x1x2048x1x2048, .f32⟩
  | .hbm, ⟨56, _⟩ => ⟨S32x2048x2048, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_call1_v0 : Ref sig .tc := ⟨.hbm, 26, rfl⟩
abbrev main_call1_v1 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call2_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512_S512x512x1x1_0_1 : S512x512.BroadcastsInDim S512x512x1x1 (![0, 1] : Fin 2 → Fin S512x512x1x1.rank)
  bcast_S512x512x1x1_S512x512x1x8_0_1_2_3 : S512x512x1x1.BroadcastsInDim S512x512x1x8 (![0, 1, 2, 3] : Fin 4 → Fin S512x512x1x8.rank)
  bcast_S512x512x1x8_S512x4x512x1x8_0_2_3_4 : S512x512x1x8.BroadcastsInDim S512x4x512x1x8 (![0, 2, 3, 4] : Fin 4 → Fin S512x4x512x1x8.rank)
  shapeCasts_S512x4x512x1x8_S2048x512x1x8 : S512x4x512x1x8.ShapeCasts S2048x512x1x8
  bcast_S2048x512x1x8_S2048x512x4x1x8_0_1_3_4 : S2048x512x1x8.BroadcastsInDim S2048x512x4x1x8 (![0, 1, 3, 4] : Fin 4 → Fin S2048x512x4x1x8.rank)
  shapeCasts_S2048x512x4x1x8_S2048x2048x1x8 : S2048x512x4x1x8.ShapeCasts S2048x2048x1x8
  shapeCasts_S4x4x1x8_S1x4x1x4x1x1x1x8 : S4x4x1x8.ShapeCasts S1x4x1x4x1x1x1x8
  bcast_S1x4x1x4x1x1x1x8_S512x4x512x4x1x1x1x8_0_1_2_3_4_5_6_7 : S1x4x1x4x1x1x1x8.BroadcastsInDim S512x4x512x4x1x1x1x8 (![0, 1, 2, 3, 4, 5, 6, 7] : Fin 8 → Fin S512x4x512x4x1x1x1x8.rank)
  shapeCasts_S512x4x512x4x1x1x1x8_S2048x2048x1x8 : S512x4x512x4x1x1x1x8.ShapeCasts S2048x2048x1x8
  shapeCasts_S2048x2048x1x8_S2048x2048x8 : S2048x2048x1x8.ShapeCasts S2048x2048x8
  transposes_S2048x2048x8_S8x2048x2048_2_0_1 : S2048x2048x8.Transposes [2, 0, 1] S8x2048x2048
  shapeCasts_S8x2048x2048_S1x8x1x2048x1x2048 : S8x2048x2048.ShapeCasts S1x8x1x2048x1x2048
  bcast_S1x8x1x2048x1x2048_S4x8x1x2048x1x2048_0_1_2_3_4_5 : S1x8x1x2048x1x2048.BroadcastsInDim S4x8x1x2048x1x2048 (![0, 1, 2, 3, 4, 5] : Fin 6 → Fin S4x8x1x2048x1x2048.rank)
  shapeCasts_S4x8x1x2048x1x2048_S32x2048x2048 : S4x8x1x2048x1x2048.ShapeCasts S32x2048x2048
  gather_S512x1x8_S512x512x1_S512x512x1x8_23_0_n_n_0_2_118_wf : GatherDims.WF S512x1x8 S512x512x1 S512x512x1x8 [2, 3] [0] [] [0] [] 2 ![1, 1, 8]

variable [Facts₀]

def gather_S512x1x8_S512x512x1_S512x512x1x8_23_0_n_n_0_2_118 : GatherDims S512x1x8 S512x512x1 S512x512x1x8 where
  offsetDims := [2, 3]
  collapsedSliceDims := [0]
  operandBatchingDims := []
  startIndicesBatchingDims := []
  startIndexMap := [0]
  indexVectorDim := 2
  sliceSizes := ![1, 1, 8]
  wf := gather_S512x1x8_S512x512x1_S512x512x1x8_23_0_n_n_0_2_118_wf

class Facts : Prop extends Facts₀ where

variable [Facts]
-- ==== Proof.Spec.lean ====
/-
  The function both programs compute. A relative-position bias: from an event table `E[ek, eq, 0, h]` (one entry per
  pair of events and per head) and a channel table `ch[ck, cq, 0, h]` (one entry per pair of channels and per head),
  the result at `[n, R, C]` is

      E[R / 4, C / 4, 0, n % 8]  +  ch[R % 4, C % 4, 0, n % 8] :

  a row `R = 4·ek + ck` and a column `C = 4·eq + cq` each carry an event and a channel, the head is `n % 8`, and the
  batch `n / 8` is not read. One addition of two table entries; no law of the extended reals is needed to state or
  to compare it, so it is stated at any float instance.
-/
import Idealize.ShloMosaic.PureOps
import Idealize.ShloMosaic.Lib.ValueIdx

noncomputable section

namespace Cert.PosBias

open Idealize.ShloMosaic Idealize.ShloMosaic.ValueIdx

/-- The event table's shape: events × events × 1 × heads. -/
abbrev EvShape : Shape := ⟨4, ![512, 512, 1, 8]⟩
/-- The channel table's shape: channels × channels × 1 × heads. -/
abbrev ChShape : Shape := ⟨4, ![4, 4, 1, 8]⟩
/-- The result's shape: (batch · heads) × rows × columns. -/
abbrev OutShape : Shape := ⟨3, ![32, 2048, 2048]⟩

/-- Two indices of a rank-3 array with equal coordinate values are equal. -/
theorem ix3_ext {n0 n1 n2 : Nat} {a a' : Fin n0} {b b' : Fin n1} {c c' : Fin n2}
    (ha : a.val = a'.val) (hb : b.val = b'.val) (hc : c.val = c'.val) : ix3 a b c = ix3 a' b' c' := by
  obtain rfl := Fin.ext ha; obtain rfl := Fin.ext hb; obtain rfl := Fin.ext hc; rfl

/-- Two indices of a rank-4 array with equal coordinate values are equal. -/
theorem ix4_ext {n0 n1 n2 n3 : Nat} {a a' : Fin n0} {b b' : Fin n1} {c c' : Fin n2} {d d' : Fin n3}
    (ha : a.val = a'.val) (hb : b.val = b'.val) (hc : c.val = c'.val) (hd : d.val = d'.val) :
    ix4 a b c d = ix4 a' b' c' d' := by
  obtain rfl := Fin.ext ha; obtain rfl := Fin.ext hb; obtain rfl := Fin.ext hc; obtain rfl := Fin.ext hd; rfl

/-- The event a row (or a column) of the full-resolution result belongs to: four channels to an event. -/
def eventOf (R : Fin 2048) : Fin 512 := ⟨R.val / 4, by have h := R.isLt; omega⟩
/-- The channel of a row (or a column). -/
def channelOf (R : Fin 2048) : Fin 4 := ⟨R.val % 4, Nat.mod_lt _ (by decide)⟩
/-- The same split of a row inside one tile of 1024 rows: its event among the tile's 256 … -/
def tileEventOf (r : Fin 1024) : Fin 256 := ⟨r.val / 4, by have h := r.isLt; omega⟩
/-- … and its channel. -/
def tileChannelOf (r : Fin 1024) : Fin 4 := ⟨r.val % 4, Nat.mod_lt _ (by decide)⟩

variable {F : FTy → Type} [FloatOps F]

/-- The event-table entry the result at `i` reads: the row's and the column's events, the head. -/
def evAt (i : OutShape.Idx) : EvShape.Idx :=
  ix4 (⟨(i 1).val / 4, by have h : (i 1).val < 2048 := (i 1).isLt; omega⟩ : Fin 512)
    (⟨(i 2).val / 4, by have h : (i 2).val < 2048 := (i 2).isLt; omega⟩ : Fin 512)
    (⟨0, Nat.one_pos⟩ : Fin 1)
    (⟨(i 0).val % 8, Nat.mod_lt _ (by decide)⟩ : Fin 8)

/-- The channel-table entry the result at `i` reads: the row's and the column's channels, the head. -/
def chAt (i : OutShape.Idx) : ChShape.Idx :=
  ix4 (⟨(i 1).val % 4, Nat.mod_lt _ (by decide)⟩ : Fin 4)
    (⟨(i 2).val % 4, Nat.mod_lt _ (by decide)⟩ : Fin 4)
    (⟨0, Nat.one_pos⟩ : Fin 1)
    (⟨(i 0).val % 8, Nat.mod_lt _ (by decide)⟩ : Fin 8)

/-- The position bias: the event entry plus the channel entry, index by index. -/
def bias (E : EvShape.Idx → Elt F .f32) (ch : ChShape.Idx → Elt F .f32) : OutShape.Idx → Elt F .f32 :=
  fun i => FloatOps.addf (E (evAt i)) (ch (chAt i))

theorem bias_apply (E : EvShape.Idx → Elt F .f32) (ch : ChShape.Idx → Elt F .f32) (i : OutShape.Idx) :
    bias E ch i = FloatOps.addf (E (evAt i)) (ch (chAt i)) := rfl

end Cert.PosBias

end
-- ==== Proof.KernelHost.lean ====
/-
  The two arrays the kernel's windows stage, as the host operations before the launch leave them.
  * The event array `[8, 512, 2048]`: the event table with the head axis moved to the front and every column repeated
    four times — `[h, ek, C]` holds the table's `[ek, C / 4, 0, h]`.
  * The channel array `[8, 4, 2048]`: the channel table with the head axis moved to the front and its four columns
    tiled 512 times — `[h, ck, C]` holds the table's `[ck, C % 4, 0, h]`.
  The event table itself (two clipped gathers selected by the sign of the event difference) is the very term the
  reference program computes; the two programs spell it operation for operation alike, so it is named here by the
  reference's stage and never opened.
-/
import proofs.«424381_j7791070675400_3_alg».proof.Proof.Gen.KernelIdeal.Frame
import proofs.«424381_j7791070675400_3_alg».proof.Proof.Gen.ReferenceIdeal.Read
import proofs.«424381_j7791070675400_3_alg».proof.Proof.Spec
import Idealize.ShloMosaic.Lib.Pipeline.Value
import Idealize.ShloMosaic.Lib.ValueIdx
import Idealize.ShloMosaic.Lib.ValueIdxRank6
import Idealize.ShloMosaic.Lib.StableHlo.Run

set_option maxRecDepth 16384

noncomputable section

namespace Cert.KernelIdeal.HostSide

open Idealize.ShloMosaic Idealize.ShloMosaic.TcCoe Idealize.SL.Sem Idealize.ShloMosaic.StableHlo Idealize.ShloMosaic.ValueIdx
open Cert.KernelIdeal Cert.KernelIdeal.Gen Cert.PosBias

variable {F : FTy → Type} [FloatOps F]

/-- The event array from the event table: unit axis dropped, heads to the front, each column four times. -/
def eventArray (E : S512x512x1x8.Idx → Elt F .f32) : S8x512x2048.Idx → Elt F .f32 :=
  shapeCast S8x512x2048 (broadcastInDim S8x512x512x4 ![0, 1, 2] bcast_S8x512x512_S8x512x512x4_0_1_2
    (transpose S8x512x512 [2, 0, 1] (shapeCast S512x512x8 E shapeCasts_S512x512x1x8_S512x512x8) transposes_S512x512x8_S8x512x512_2_0_1))
    shapeCasts_S8x512x512x4_S8x512x2048

/-- The channel array from the channel table: unit axis dropped, heads to the front, the four columns tiled 512 times. -/
def channelArray (x1 : S4x4x1x8.Idx → Elt F .f32) : S8x4x2048.Idx → Elt F .f32 :=
  shapeCast S8x4x2048 (broadcastInDim S1x8x1x4x512x4 ![0, 1, 2, 3, 4, 5] bcast_S1x8x1x4x1x4_S1x8x1x4x512x4_0_1_2_3_4_5
    (shapeCast S1x8x1x4x1x4 (transpose S8x4x4 [2, 0, 1] (shapeCast S4x4x8 x1 shapeCasts_S4x4x1x8_S4x4x8) transposes_S4x4x8_S8x4x4_2_0_1)
      shapeCasts_S8x4x4_S1x8x1x4x1x4)) shapeCasts_S1x8x1x4x512x4_S8x4x2048

/-- The event array at `[h, ek, C]` is the table at `[ek, C / 4, 0, h]`. -/
theorem eventArray_apply (E : S512x512x1x8.Idx → Elt F .f32) (h : Fin 8) (ek : Fin 512) (C : Fin 2048) :
    eventArray E (ix3 h ek C) = E (ix4 ek (eventOf C) (⟨0, Nat.one_pos⟩ : Fin 1) h) := by
  unfold eventArray
  refine (shapeCast_apply _ shapeCasts_S8x512x512x4_S8x512x2048 (ix3 h ek C) (ix4 h ek (eventOf C) (channelOf C)) ?_).trans ?_
  · rw [Shape.rowMajor_val_four, Shape.rowMajor_val_three]
    show ((h.val * 512 + ek.val) * 512 + C.val / 4) * 4 + C.val % 4 = (h.val * 512 + ek.val) * 2048 + C.val
    omega
  refine (broadcastInDim_apply _ bcast_S8x512x512_S8x512x512x4_0_1_2 _ (ix4 h ek (eventOf C) (channelOf C)) (ix3 h ek (eventOf C))
    (fun a => match a with
      | ⟨0, _⟩ => by show h.val = if (8 : Nat) = 1 then 0 else h.val; rw [if_neg (by decide)]
      | ⟨1, _⟩ => by show ek.val = if (512 : Nat) = 1 then 0 else ek.val; rw [if_neg (by decide)]
      | ⟨2, _⟩ => by show C.val / 4 = if (512 : Nat) = 1 then 0 else C.val / 4; rw [if_neg (by decide)])).trans ?_
  refine (transpose_apply [2, 0, 1] _ transposes_S512x512x8_S8x512x512_2_0_1 (ix3 h ek (eventOf C)) (ix3 ek (eventOf C) h)
    (fun b => match b with
      | ⟨0, _⟩ => rfl
      | ⟨1, _⟩ => rfl
      | ⟨2, _⟩ => rfl)).trans ?_
  refine shapeCast_apply _ shapeCasts_S512x512x1x8_S512x512x8 (ix3 ek (eventOf C) h) (ix4 ek (eventOf C) (⟨0, Nat.one_pos⟩ : Fin 1) h) ?_
  rw [Shape.rowMajor_val_four, Shape.rowMajor_val_three]
  show ((ek.val * 512 + C.val / 4) * 1 + 0) * 8 + h.val = (ek.val * 512 + C.val / 4) * 8 + h.val
  omega

/-- The channel array at `[h, ck, C]` is the table at `[ck, C % 4, 0, h]`. -/
theorem channelArray_apply (x1 : S4x4x1x8.Idx → Elt F .f32) (h : Fin 8) (ck : Fin 4) (C : Fin 2048) :
    channelArray x1 (ix3 h ck C) = x1 (ix4 ck (channelOf C) (⟨0, Nat.one_pos⟩ : Fin 1) h) := by
  unfold channelArray
  refine (shapeCast_apply _ shapeCasts_S1x8x1x4x512x4_S8x4x2048 (ix3 h ck C)
    (ix6 (⟨0, Nat.one_pos⟩ : Fin 1) h (⟨0, Nat.one_pos⟩ : Fin 1) ck (eventOf C) (channelOf C)) ?_).trans ?_
  · rw [Shape.rowMajor_val_six, Shape.rowMajor_val_three]
    show ((((0 * 8 + h.val) * 1 + 0) * 4 + ck.val) * 512 + C.val / 4) * 4 + C.val % 4 = (h.val * 4 + ck.val) * 2048 + C.val
    omega
  refine (broadcastInDim_apply _ bcast_S1x8x1x4x1x4_S1x8x1x4x512x4_0_1_2_3_4_5 _
    (ix6 (⟨0, Nat.one_pos⟩ : Fin 1) h (⟨0, Nat.one_pos⟩ : Fin 1) ck (eventOf C) (channelOf C))
    (ix6 (⟨0, Nat.one_pos⟩ : Fin 1) h (⟨0, Nat.one_pos⟩ : Fin 1) ck (⟨0, Nat.one_pos⟩ : Fin 1) (channelOf C))
    (fun a => match a with
      | ⟨0, _⟩ => by show 0 = if (1 : Nat) = 1 then 0 else 0; rw [if_pos rfl]
      | ⟨1, _⟩ => by show h.val = if (8 : Nat) = 1 then 0 else h.val; rw [if_neg (by decide)]
      | ⟨2, _⟩ => by show 0 = if (1 : Nat) = 1 then 0 else 0; rw [if_pos rfl]
      | ⟨3, _⟩ => by show ck.val = if (4 : Nat) = 1 then 0 else ck.val; rw [if_neg (by decide)]
      | ⟨4, _⟩ => by show 0 = if (1 : Nat) = 1 then 0 else C.val / 4; rw [if_pos rfl]
      | ⟨5, _⟩ => by show C.val % 4 = if (4 : Nat) = 1 then 0 else C.val % 4; rw [if_neg (by decide)])).trans ?_
  refine (shapeCast_apply _ shapeCasts_S8x4x4_S1x8x1x4x1x4
    (ix6 (⟨0, Nat.one_pos⟩ : Fin 1) h (⟨0, Nat.one_pos⟩ : Fin 1) ck (⟨0, Nat.one_pos⟩ : Fin 1) (channelOf C)) (ix3 h ck (channelOf C)) ?_).trans ?_
  · rw [Shape.rowMajor_val_six, Shape.rowMajor_val_three]
    show (h.val * 4 + ck.val) * 4 + C.val % 4 = ((((0 * 8 + h.val) * 1 + 0) * 4 + ck.val) * 1 + 0) * 4 + C.val % 4
    omega
  refine (transpose_apply [2, 0, 1] _ transposes_S4x4x8_S8x4x4_2_0_1 (ix3 h ck (channelOf C)) (ix3 ck (channelOf C) h)
    (fun b => match b with
      | ⟨0, _⟩ => rfl
      | ⟨1, _⟩ => rfl
      | ⟨2, _⟩ => rfl)).trans ?_
  refine shapeCast_apply _ shapeCasts_S4x4x1x8_S4x4x8 (ix3 ck (channelOf C) h) (ix4 ck (channelOf C) (⟨0, Nat.one_pos⟩ : Fin 1) h) ?_
  rw [Shape.rowMajor_val_four, Shape.rowMajor_val_three]
  show ((ck.val * 4 + C.val % 4) * 1 + 0) * 8 + h.val = (ck.val * 4 + C.val % 4) * 8 + h.val
  omega

variable (m : (ℓ : Loc nD τ sig) → Buf (Elt F) ℓ)

/-- The event table as the reference spells it, of this program's two event inputs. -/
abbrev eventTable (c : Dev nD) : S512x512x1x8.Idx → Elt F .f32 :=
  Cert.ReferenceIdeal.Read.val_main_v27 (F := F) (m ((c : Thread nD τ).loc main_arg2)) (m ((c : Thread nD τ).loc main_arg3))

set_option maxHeartbeats 4000000 in
/-- Window 0's array when the region is entered: the event array of the event table. The host operations before the
    launch are read back one by one; the table they build is the reference's, spelt alike. -/
theorem events_staged (c : Dev nD) :
    (V m c main_v31 : S8x512x2048.Idx → Elt F .f32) = eventArray (eventTable m c) := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  rfl

set_option maxHeartbeats 4000000 in
/-- Window 1's array when the region is entered: the channel array of the channel input. -/
theorem channels_staged (c : Dev nD) :
    (V m c main_v36 : S8x4x2048.Idx → Elt F .f32) = channelArray (m ((c : Thread nD τ).loc main_arg1)) := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  rfl

end Cert.KernelIdeal.HostSide

end
-- ==== Proof.KernelBody.lean ====
/-
  What one grid point's body computes. It loads a slab of 256 event rows and the 4 channel rows of its head, both 512
  columns wide, expands them to a tile of 1024 rows — row `r` takes event row `r / 4` and channel row `r % 4` — adds
  the two, and stores the same tile into each of the four batch slots of the output block. So the block after the body
  is, at every index `[b, 0, r, q]`, the sum `events[0, r / 4, q] + channels[0, r % 4, q]`, whatever `b`.
-/
import proofs.«424381_j7791070675400_3_alg».proof.Proof.Gen.KernelIdeal.Frame
import proofs.«424381_j7791070675400_3_alg».proof.Proof.Spec
import Idealize.ShloMosaic.Lib.Pipeline.Value
import Idealize.ShloMosaic.Lib.ValueIdx

set_option maxRecDepth 16384

noncomputable section

namespace Cert.KernelIdeal.Body

open Idealize.ShloMosaic Idealize.ShloMosaic.ValueIdx Cert.KernelIdeal Cert.KernelIdeal.Gen Cert.PosBias

variable {F : FTy → Type} [FloatOps F]

theorem zeros3 : (![0, 0, 0] : Fin 3 → Nat) = fun _ => 0 := funext fun a => by fin_cases a <;> rfl

/-- The event slab expanded to the tile: row `r` of the tile is event row `r / 4` (each event row repeated for the four
    channels: a unit axis added, broadcast to four, merged into the rows). -/
theorem expand_events (x0 : Vec F S1x256x512 .f32) (r : Fin 1024) (q : Fin 512) :
    shapeCast S1024x512 (broadcastTo S256x4x512 (shapeCast S256x1x512 (shapeCast S256x1x512
        (shapeCast S256x512 x0 shapeCasts_S1x256x512_S256x512) shapeCasts_S256x512_S256x1x512)
        shapeCasts_S256x1x512_S256x1x512) broadcasts_S256x1x512_S256x4x512) shapeCasts_S256x4x512_S1024x512 (ix2 r q)
      = x0 (ix3 (⟨0, Nat.one_pos⟩ : Fin 1) (tileEventOf r) q) := by
  refine (shapeCast_apply _ shapeCasts_S256x4x512_S1024x512 (ix2 r q) (ix3 (tileEventOf r) (tileChannelOf r) q) ?_).trans ?_
  · rw [Shape.rowMajor_val_three, Shape.rowMajor_val_two]
    show (r.val / 4 * 4 + r.val % 4) * 512 + q.val = r.val * 512 + q.val
    omega
  refine (broadcastTo_apply _ broadcasts_S256x1x512_S256x4x512 (ix3 (tileEventOf r) (tileChannelOf r) q)
    (ix3 (tileEventOf r) (⟨0, Nat.one_pos⟩ : Fin 1) q) (fun a => match a with
      | ⟨0, _⟩ => by show r.val / 4 = if (256 : Nat) = 1 then 0 else r.val / 4; rw [if_neg (by decide)]
      | ⟨1, _⟩ => by show 0 = if (1 : Nat) = 1 then 0 else r.val % 4; rw [if_pos rfl]
      | ⟨2, _⟩ => by show q.val = if (512 : Nat) = 1 then 0 else q.val; rw [if_neg (by decide)])).trans ?_
  refine (congrFun (shapeCast_self _ shapeCasts_S256x1x512_S256x1x512) _).trans ?_
  refine (shapeCast_apply _ shapeCasts_S256x512_S256x1x512 (ix3 (tileEventOf r) (⟨0, Nat.one_pos⟩ : Fin 1) q) (ix2 (tileEventOf r) q) ?_).trans ?_
  · rw [Shape.rowMajor_val_three, Shape.rowMajor_val_two]
    show r.val / 4 * 512 + q.val = (r.val / 4 * 1 + 0) * 512 + q.val
    omega
  refine shapeCast_apply _ shapeCasts_S1x256x512_S256x512 (ix2 (tileEventOf r) q) (ix3 (⟨0, Nat.one_pos⟩ : Fin 1) (tileEventOf r) q) ?_
  rw [Shape.rowMajor_val_three, Shape.rowMajor_val_two]
  show (0 * 256 + r.val / 4) * 512 + q.val = r.val / 4 * 512 + q.val
  omega

/-- The channel rows expanded to the tile: row `r` of the tile is channel row `r % 4` (the four rows broadcast over the
    256 events, merged into the rows). -/
theorem expand_channels (x1 : Vec F S1x4x512 .f32) (r : Fin 1024) (q : Fin 512) :
    shapeCast S1024x512 (broadcastTo S256x4x512 (shapeCast S1x4x512 (shapeCast S1x4x512
        (shapeCast S4x512 x1 shapeCasts_S1x4x512_S4x512) shapeCasts_S4x512_S1x4x512)
        shapeCasts_S1x4x512_S1x4x512) broadcasts_S1x4x512_S256x4x512) shapeCasts_S256x4x512_S1024x512 (ix2 r q)
      = x1 (ix3 (⟨0, Nat.one_pos⟩ : Fin 1) (tileChannelOf r) q) := by
  refine (shapeCast_apply _ shapeCasts_S256x4x512_S1024x512 (ix2 r q) (ix3 (tileEventOf r) (tileChannelOf r) q) ?_).trans ?_
  · rw [Shape.rowMajor_val_three, Shape.rowMajor_val_two]
    show (r.val / 4 * 4 + r.val % 4) * 512 + q.val = r.val * 512 + q.val
    omega
  refine (broadcastTo_apply _ broadcasts_S1x4x512_S256x4x512 (ix3 (tileEventOf r) (tileChannelOf r) q)
    (ix3 (⟨0, Nat.one_pos⟩ : Fin 1) (tileChannelOf r) q) (fun a => match a with
      | ⟨0, _⟩ => by show 0 = if (1 : Nat) = 1 then 0 else r.val / 4; rw [if_pos rfl]
      | ⟨1, _⟩ => by show r.val % 4 = if (4 : Nat) = 1 then 0 else r.val % 4; rw [if_neg (by decide)]
      | ⟨2, _⟩ => by show q.val = if (512 : Nat) = 1 then 0 else q.val; rw [if_neg (by decide)])).trans ?_
  refine (congrFun (shapeCast_self _ shapeCasts_S1x4x512_S1x4x512) _).trans ?_
  refine (shapeCast_apply _ shapeCasts_S4x512_S1x4x512 (ix3 (⟨0, Nat.one_pos⟩ : Fin 1) (tileChannelOf r) q) (ix2 (tileChannelOf r) q) ?_).trans ?_
  · rw [Shape.rowMajor_val_three, Shape.rowMajor_val_two]
    show r.val % 4 * 512 + q.val = (0 * 4 + r.val % 4) * 512 + q.val
    omega
  refine shapeCast_apply _ shapeCasts_S1x4x512_S4x512 (ix2 (tileChannelOf r) q) (ix3 (⟨0, Nat.one_pos⟩ : Fin 1) (tileChannelOf r) q) ?_
  rw [Shape.rowMajor_val_three, Shape.rowMajor_val_two]
  show (0 * 4 + r.val % 4) * 512 + q.val = r.val % 4 * 512 + q.val
  omega

/-- The tile the body adds up, at a row and a column. -/
theorem tile_sum (x0 : Vec F S1x256x512 .f32) (x1 : Vec F S1x4x512 .f32) (r : Fin 1024) (q : Fin 512) :
    k0_pay1 x0 x1 (ix2 r q)
      = FloatOps.addf (x0 (ix3 (⟨0, Nat.one_pos⟩ : Fin 1) (tileEventOf r) q)) (x1 (ix3 (⟨0, Nat.one_pos⟩ : Fin 1) (tileChannelOf r) q)) :=
  congrArg₂ FloatOps.addf (expand_events x0 r q) (expand_channels x1 r q)

/-- What the block holds at `y` once the body has run: a function of the tile row `y 2` and the column `y 3` alone. -/
def blockAt (x0 : Vec F S1x256x512 .f32) (x1 : Vec F S1x4x512 .f32) (y : S4x1x1024x512.Idx) : Elt F .f32 :=
  FloatOps.addf (x0 (ix3 (⟨0, Nat.one_pos⟩ : Fin 1) (tileEventOf ⟨(y 2).val, (y 2).isLt⟩) ⟨(y 3).val, (y 3).isLt⟩))
    (x1 (ix3 (⟨0, Nat.one_pos⟩ : Fin 1) (tileChannelOf ⟨(y 2).val, (y 2).isLt⟩) ⟨(y 3).val, (y 3).isLt⟩))

/-- One stored slab: the tile under two unit axes, at a slab index `x`. -/
theorem slab_apply (x0 : Vec F S1x256x512 .f32) (x1 : Vec F S1x4x512 .f32) (x : S1x1x1024x512.Idx) :
    shapeCast S1x1x1024x512 (k0_pay1 x0 x1) shapeCasts_S1024x512_S1x1x1024x512 x
      = FloatOps.addf (x0 (ix3 (⟨0, Nat.one_pos⟩ : Fin 1) (tileEventOf ⟨(x 2).val, (x 2).isLt⟩) ⟨(x 3).val, (x 3).isLt⟩))
          (x1 (ix3 (⟨0, Nat.one_pos⟩ : Fin 1) (tileChannelOf ⟨(x 2).val, (x 2).isLt⟩) ⟨(x 3).val, (x 3).isLt⟩)) := by
  refine (shapeCast_apply _ shapeCasts_S1024x512_S1x1x1024x512 x (ix2 (⟨(x 2).val, (x 2).isLt⟩ : Fin 1024) (⟨(x 3).val, (x 3).isLt⟩ : Fin 512)) ?_).trans
    (tile_sum x0 x1 _ _)
  rw [Shape.rowMajor_val_two, Shape.rowMajor_val_four]
  have h0 : (x 0).val < 1 := (x 0).isLt
  have h1 : (x 1).val < 1 := (x 1).isLt
  show (x 2).val * 512 + (x 3).val = (((x 0).val * 1 + (x 1).val) * 1024 + (x 2).val) * 512 + (x 3).val
  omega

/-- THE BLOCK AFTER THE BODY: its four stores, one per batch slot, each the same tile; together they cover the block,
    and each agrees with `blockAt`, which does not read the batch coordinate. -/
theorem out_block (x0 : Vec F S1x256x512 .f32) (x1 : Vec F S1x4x512 .f32) (y : S4x1x1024x512.Idx) :
    out0_2 x0 x1 y = blockAt x0 x1 y := by
  unfold out0_2
  refine View.canon_apply_of_pieces (blockAt x0 x1) _ ?_ y (cover0_2 _ _ _ _ y)
  intro p hp
  simp only [List.mem_cons, List.mem_nil_iff, or_false] at hp
  rcases hp with rfl | rfl | rfl | rfl
  all_goals
    intro x
    simp only [View.ld_unit_zero (S := S1x256x512) zeros3, View.ld_unit_zero (S := S1x4x512) zeros3]
    first
      | exact (slab_apply x0 x1 x).trans (by
          unfold blockAt
          exact congrArg₂ FloatOps.addf
            (congrArg x0 (ix3_ext rfl (by show (x 2).val / 4 = (0 + 1 * (x 2).val) / 4; omega) (by show (x 3).val = 0 + 1 * (x 3).val; omega)))
            (congrArg x1 (ix3_ext rfl (by show (x 2).val % 4 = (0 + 1 * (x 2).val) % 4; omega) (by show (x 3).val = 0 + 1 * (x 3).val; omega))))

end Cert.KernelIdeal.Body

end
-- ==== Proof.KernelArray.lean ====
/-
  From blocks to the array. The launch runs 8 × 2 × 4 grid points `(h, i, j)`. Point `(h, i, j)` reads event rows
  `256·i … 256·i + 255` and the four channel rows of head `h`, columns `512·j … 512·j + 511`, and writes back the
  block `[0..3, h, 1024·i …, 512·j …]` of the output. A row `R = 1024·i + r` of the output has event `R / 4 = 256·i + r / 4`
  and channel `R % 4 = r % 4`, so every block is the restriction of ONE function of the two staged arrays:

      out[b, h, R, C] = events[h, R / 4, C] + channels[h, R % 4, C],

  and the blocks tile the output, so the output array ends holding that function everywhere.
-/
import proofs.«424381_j7791070675400_3_alg».proof.Proof.Gen.KernelIdeal.Frame
import proofs.«424381_j7791070675400_3_alg».proof.Proof.KernelBody
import proofs.«424381_j7791070675400_3_alg».proof.Proof.Spec
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen Cert.PosBias
open Idealize.ShloMosaic.Pipeline (Dat Cfg Window)

variable {F : FTy → Type} [FloatOps F]

/-- The launched output as one function of the two staged arrays: at `[b, h, R, C]` the event array's row `R / 4` plus
    the channel array's row `R % 4`, both of head `h` at column `C`; the batch `b` is not read. -/
def launched (A : S8x512x2048.Idx → Elt F .f32) (B : S8x4x2048.Idx → Elt F .f32) : S4x8x2048x2048.Idx → Elt F .f32 :=
  fun i => FloatOps.addf
    (A (ix3 (⟨(i 1).val, (i 1).isLt⟩ : Fin 8) (eventOf ⟨(i 2).val, (i 2).isLt⟩) (⟨(i 3).val, (i 3).isLt⟩ : Fin 2048)))
    (B (ix3 (⟨(i 1).val, (i 1).isLt⟩ : Fin 8) (channelOf ⟨(i 2).val, (i 2).isLt⟩) (⟨(i 3).val, (i 3).isLt⟩ : Fin 2048)))

/-- The index maps, decided over the 64 grid points: the event window moves with the output's head, row-block and
    column-block coordinates; the channel window with its head and column-block (row-block 0 always); the output's batch
    block is 0, and its other block indices stay in their ranges. -/
theorem index_maps : ∀ t : Fin cfg0.N,
    win0_0.index t (0 : Fin 3) = win0_2.index t (1 : Fin 4)
    ∧ win0_0.index t (1 : Fin 3) = win0_2.index t (2 : Fin 4)
    ∧ win0_0.index t (2 : Fin 3) = win0_2.index t (3 : Fin 4)
    ∧ win0_1.index t (0 : Fin 3) = win0_2.index t (1 : Fin 4)
    ∧ win0_1.index t (1 : Fin 3) = 0
    ∧ win0_1.index t (2 : Fin 3) = win0_2.index t (3 : Fin 4)
    ∧ win0_2.index t (0 : Fin 4) = 0
    ∧ win0_2.index t (1 : Fin 4) ≤ 7 ∧ win0_2.index t (2 : Fin 4) ≤ 1 ∧ win0_2.index t (3 : Fin 4) ≤ 3 :=
  (by decide +kernel : ∀ t : Fin grid0.N, _)

/-- Every block of the output is some point's. -/
theorem every_block : ∀ (q1 : Fin 8) (q2 : Fin 2) (q3 : Fin 4), ∃ t : Fin cfg0.N, win0_2.index t = ![0, q1.val, q2.val, q3.val] :=
  (by decide +kernel : ∀ (q1 : Fin 8) (q2 : Fin 2) (q3 : Fin 4), ∃ t : Fin grid0.N, win0_2.index t = ![0, q1.val, q2.val, q3.val])

/-- One block, over ANY two arrays: the body's block of the event window's and the channel window's blocks at point `t`
    is, at a block index `j`, `launched` of the arrays at the output index `j` sits at. The event window's block starts at
    event row `256·i` where the output's starts at row `1024·i`, and a row's event is its quarter; the channel window's
    block is the four rows of the head, and a row's channel its remainder; heads and columns move together. -/
theorem block_eq (A : S8x512x2048.Idx → Elt F .f32) (B : S8x4x2048.Idx → Elt F .f32) (t : Fin cfg0.N) (j : S4x1x1024x512.Idx) :
    Body.blockAt (((cfg0.win 0).blk t).view.read (Elt F) A) (((cfg0.win 1).blk t).view.read (Elt F) B) j
      = launched A B (((cfg0.win 2).blk t).view.emb j) := by
  obtain ⟨e0, e1, e2, e3, e4, e5, e6, b1, b2, b3⟩ := index_maps t
  have hj1 : (j 1).val < 1 := (j 1).isLt
  have hj2 : (j 2).val < 1024 := (j 2).isLt
  have hj3 : (j 3).val < 512 := (j 3).isLt
  show FloatOps.addf
      (A (((cfg0.win 0).blk t).view.emb (ix3 (⟨0, Nat.one_pos⟩ : Fin 1) (tileEventOf ⟨(j 2).val, (j 2).isLt⟩) (⟨(j 3).val, (j 3).isLt⟩ : Fin 512))))
      (B (((cfg0.win 1).blk t).view.emb (ix3 (⟨0, Nat.one_pos⟩ : Fin 1) (tileChannelOf ⟨(j 2).val, (j 2).isLt⟩) (⟨(j 3).val, (j 3).isLt⟩ : Fin 512))))
    = launched A B (((cfg0.win 2).blk t).view.emb j)
  refine congrArg₂ FloatOps.addf (congrArg A ?_) (congrArg B ?_)
  · funext a; apply Fin.ext
    match a with
    | ⟨0, _⟩ => show win0_0.index t (0 : Fin 3) * 1 + 1 * 0 = win0_2.index t (1 : Fin 4) * 1 + 1 * (j 1).val; omega
    | ⟨1, _⟩ => show win0_0.index t (1 : Fin 3) * 256 + 1 * ((j 2).val / 4) = (win0_2.index t (2 : Fin 4) * 1024 + 1 * (j 2).val) / 4; omega
    | ⟨2, _⟩ => show win0_0.index t (2 : Fin 3) * 512 + 1 * (j 3).val = win0_2.index t (3 : Fin 4) * 512 + 1 * (j 3).val; omega
  · funext a; apply Fin.ext
    match a with
    | ⟨0, _⟩ => show win0_1.index t (0 : Fin 3) * 1 + 1 * 0 = win0_2.index t (1 : Fin 4) * 1 + 1 * (j 1).val; omega
    | ⟨1, _⟩ => show win0_1.index t (1 : Fin 3) * 4 + 1 * ((j 2).val % 4) = (win0_2.index t (2 : Fin 4) * 1024 + 1 * (j 2).val) % 4; omega
    | ⟨2, _⟩ => show win0_1.index t (2 : Fin 3) * 512 + 1 * (j 3).val = win0_2.index t (3 : Fin 4) * 512 + 1 * (j 3).val; omega

variable (m : (ℓ : Loc nD τ sig) → Buf (Elt F) ℓ)

/-- WHAT POINT `t` WRITES BACK is block `t` of `launched` of the two arrays as the region finds them: the body's block
    (`Body.out_block`) of the two windows' blocks, which are the arrays read through the blocks' views. -/
theorem flushed_eq (c : Dev nD) (t : Fin cfg0.N) :
    (dats m 0 c).flushed 2 t
      = ((cfg0.win 2).blk t).view.read (Elt F) (launched (V m c (Pipeline.arrRef spec0 0)) (V m c (Pipeline.arrRef spec0 1))) := by
  show (cfg0.win 2).cut (grid0.coords t) ((dats m 0 c).after 2 t) = _
  rw [after0_2]
  funext j
  refine (Body.out_block (iblk m c 0 t) (iblk m c 1 t) j).trans ?_
  unfold iblk
  exact block_eq (V m c (Pipeline.arrRef spec0 0)) (V m c (Pipeline.arrRef spec0 1)) t j

/-- An index of the output array is in point `t`'s block iff each coordinate is in the block's range on its axis. -/
theorem mem_blk (t : Fin cfg0.N) (i : S4x8x2048x2048.Idx) :
    i ∈ ((cfg0.win 2).blk t).view.set ↔ ∀ a : Fin 4, win0_2.index t a * S4x1x1024x512.size a ≤ (i a).val
      ∧ (i a).val < win0_2.index t a * S4x1x1024x512.size a + S4x1x1024x512.size a := by
  show i ∈ ((View.whole main_v37).slice (win0_2.rect t)).set ↔ _
  rw [View.set_slice_whole, Rect.mem_set_unit]
  exact Iff.rfl

/-- The blocks tile the output: the point that covers `[b, h, R, C]` is `(h, R / 1024, C / 512)`. -/
theorem covered (i : S4x8x2048x2048.Idx) :
    ∃ t : Fin cfg0.N, (cfg0.win 2).flush t = true ∧ i ∈ ((cfg0.win 2).blk t).view.set := by
  have h0 : (i 0).val < 4 := (i 0).isLt
  have h1 : (i 1).val < 8 := (i 1).isLt
  have h2 : (i 2).val < 2048 := (i 2).isLt
  have h3 : (i 3).val < 2048 := (i 3).isLt
  obtain ⟨t, ht⟩ := every_block ⟨(i 1).val, h1⟩ ⟨(i 2).val / 1024, by omega⟩ ⟨(i 3).val / 512, by omega⟩
  have q0 : win0_2.index t (0 : Fin 4) = 0 := congrFun ht 0
  have q1 : win0_2.index t (1 : Fin 4) = (i 1).val := congrFun ht 1
  have q2 : win0_2.index t (2 : Fin 4) = (i 2).val / 1024 := congrFun ht 2
  have q3 : win0_2.index t (3 : Fin 4) = (i 3).val / 512 := congrFun ht 3
  refine ⟨t, flush0_2 t, ?_⟩
  rw [mem_blk]
  intro a
  match a with
  | ⟨0, _⟩ => show win0_2.index t (0 : Fin 4) * 4 ≤ (i 0).val ∧ (i 0).val < win0_2.index t (0 : Fin 4) * 4 + 4; omega
  | ⟨1, _⟩ => show win0_2.index t (1 : Fin 4) * 1 ≤ (i 1).val ∧ (i 1).val < win0_2.index t (1 : Fin 4) * 1 + 1; omega
  | ⟨2, _⟩ => show win0_2.index t (2 : Fin 4) * 1024 ≤ (i 2).val ∧ (i 2).val < win0_2.index t (2 : Fin 4) * 1024 + 1024; omega
  | ⟨3, _⟩ => show win0_2.index t (3 : Fin 4) * 512 ≤ (i 3).val ∧ (i 3).val < win0_2.index t (3 : Fin 4) * 512 + 512; omega

/-- THE OUTPUT ARRAY after the launch: `launched` of the two staged arrays. -/
theorem final (c : Dev nD) :
    (dats m 0 c).arrAt 2 cfg0.N = launched (V m c (Pipeline.arrRef spec0 0)) (V m c (Pipeline.arrRef spec0 1)) :=
  (dats m 0 c).arrAt_eq_of_cover 2 _ (fun t _ => flushed_eq m c t) covered

end Cert.KernelIdeal.Blocks

end
-- ==== Proof.KernelRun.lean ====
/-
  The kernel's run, read. After the launch one host operation remains: the output `[4, 8, 2048, 2048]` reshaped to
  `[32, 2048, 2048]`, so that `[n, R, C]` reads `[n / 8, n % 8, R, C]`. With the launched output a function of the two
  staged arrays, and those the event array of the event table and the channel array of the channel input,

      result[n, R, C] = table[R / 4, C / 4, 0, n % 8] + channel[R % 4, C % 4, 0, n % 8] :

  the position bias of the event table and the channel input.
-/
import proofs.«424381_j7791070675400_3_alg».proof.Proof.Gen.KernelIdeal.Frame
import proofs.«424381_j7791070675400_3_alg».proof.Proof.KernelHost
import proofs.«424381_j7791070675400_3_alg».proof.Proof.KernelArray
import proofs.«424381_j7791070675400_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.KernelValue

open Idealize.ShloMosaic Idealize.ShloMosaic.TcCoe Idealize.SL.Sem Idealize.ShloMosaic.StableHlo Idealize.ShloMosaic.ValueIdx
open Cert.KernelIdeal Cert.KernelIdeal.Gen Cert.PosBias Cert.KernelIdeal.HostSide Cert.KernelIdeal.Blocks

variable {F : FTy → Type} [FloatOps F]

/-- The launched output of the event array and the channel array of two tables, its batch and head axes merged, is the
    position bias of the tables: a row's event and channel index the event array's row and the channel array's row, a
    column's event and channel are read by the two arrays' column layouts. -/
theorem merged_eq_bias (E : S512x512x1x8.Idx → Elt F .f32) (x1 : S4x4x1x8.Idx → Elt F .f32) :
    shapeCast S32x2048x2048 (launched (eventArray E) (channelArray x1)) Gen.shapeCasts_S4x8x2048x2048_S32x2048x2048 = bias E x1 := by
  funext i
  have h0 : (i 0).val < 32 := (i 0).isLt
  have h1 : (i 1).val < 2048 := (i 1).isLt
  have h2 : (i 2).val < 2048 := (i 2).isLt
  refine (shapeCast_apply _ Gen.shapeCasts_S4x8x2048x2048_S32x2048x2048 i
    (ix4 (⟨(i 0).val / 8, by omega⟩ : Fin 4) (⟨(i 0).val % 8, Nat.mod_lt _ (by decide)⟩ : Fin 8)
      (⟨(i 1).val, h1⟩ : Fin 2048) (⟨(i 2).val, h2⟩ : Fin 2048)) ?_).trans ?_
  · rw [Shape.rowMajor_val_four, Shape.rowMajor_val_three]
    show (((i 0).val / 8 * 8 + (i 0).val % 8) * 2048 + (i 1).val) * 2048 + (i 2).val = ((i 0).val * 2048 + (i 1).val) * 2048 + (i 2).val
    omega
  show FloatOps.addf
      (eventArray E (ix3 (⟨(i 0).val % 8, Nat.mod_lt _ (by decide)⟩ : Fin 8) (eventOf ⟨(i 1).val, h1⟩) (⟨(i 2).val, h2⟩ : Fin 2048)))
      (channelArray x1 (ix3 (⟨(i 0).val % 8, Nat.mod_lt _ (by decide)⟩ : Fin 8) (channelOf ⟨(i 1).val, h1⟩) (⟨(i 2).val, h2⟩ : Fin 2048)))
    = bias E x1 i
  rw [eventArray_apply, channelArray_apply]
  rfl

variable (m : (ℓ : Loc nD τ sig) → Buf (Elt F) ℓ) (ρ : Dev nD → PrngReg)

/-- The result buffer after the one host operation that follows the launch: the launched output, reshaped. -/
theorem tail_value (c : Dev nD) :
    Pipeline.afterTail₀ cfgs (dats m) 0 (V0 m) [hostOps1] c main_v38
      = shapeCast S32x2048x2048 (launched (V m c main_v31) (V m c main_v36)) Gen.shapeCasts_S4x8x2048x2048_S32x2048x2048 := by
  unfold Pipeline.afterTail₀
  show StableHlo.after hostOps1 _ (Proc.devRef .tc main_v38) = _
  after_results
  rw [show Pipeline.withArrays (cfgs 0).spec c (V0 m c) (fun w => (dats m 0 c).arrAt w (cfgs 0).N) (Proc.devRef .tc main_v37)
      = launched (V m c main_v31) (V m c main_v36) from
    (Pipeline.withArrays_arr spec0 launch0.win.arr_inj c _ _ 2).trans (Blocks.final m c)]
  rfl

/-- The kernel's result: the position bias of the event table (as the reference spells it, of the two event inputs) and
    the channel input. -/
def result (c : Dev nD) : Buf (Elt F) ((c.tc : Thread nD τ).loc main_v38) :=
  bias (eventTable m c) (m ((c : Thread nD τ).loc main_arg1))

/-- The frame run re-posted: the result buffer at `result`, the arguments unchanged. -/
theorem run : θ_run defs (onTc (τ := τ) (main (F := F))) ⟨m, fun _ => 0, ρ⟩ fun r => ∀ c : Dev nD,
      r.2.mem ((c.tc : Thread nD τ).loc main_v38) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v38 (Pipeline.mem_restRefs_of main_v38 (by decide) (by decide))).trans
        ((tail_value m c).trans (by
          rw [events_staged m c, channels_staged m c]
          exact merged_eq_bias _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.LibRank8.lean ====
/-
  Rank-8 indices by coordinates. A reshape between a rank-8 array and a lower-rank one is read at an index through the
  row-major position of that index; this file spells the position of a rank-8 index as one nested sum of products,
  the rank-8 member of the family `Shape.rowMajor_val_one` … `Shape.rowMajor_val_six`, and gives the constructor
  `ix8` of a rank-8 index from its eight coordinates, with the fact that every rank-8 index is one.
-/
import Idealize.ShloMosaic.Lib.ValueIdx

namespace Idealize.ShloMosaic

/-- Rank 8: the row-major position of an index is the Horner sum of its coordinates against the trailing extents. -/
theorem Shape.rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
          + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

namespace ValueIdx

/-- A rank-8 index from its coordinates. -/
abbrev ix8 {n0 n1 n2 n3 n4 n5 n6 n7 : Nat} (a : Fin n0) (b : Fin n1) (c : Fin n2) (d : Fin n3) (e : Fin n4) (f : Fin n5)
    (g : Fin n6) (h : Fin n7) : (⟨8, ![n0, n1, n2, n3, n4, n5, n6, n7]⟩ : Shape).Idx :=
  fun k => match k with
    | ⟨0, _⟩ => a | ⟨1, _⟩ => b | ⟨2, _⟩ => c | ⟨3, _⟩ => d | ⟨4, _⟩ => e | ⟨5, _⟩ => f | ⟨6, _⟩ => g | ⟨7, _⟩ => h

/-- Every rank-8 index is `ix8` of its coordinates. -/
theorem eq_ix8 {n0 n1 n2 n3 n4 n5 n6 n7 : Nat} (j : (⟨8, ![n0, n1, n2, n3, n4, n5, n6, n7]⟩ : Shape).Idx) :
    j = ix8 (j 0) (j 1) (j 2) (j 3) (j 4) (j 5) (j 6) (j 7) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

end ValueIdx

end Idealize.ShloMosaic
-- ==== Proof.RefValue.lean ====
/-
  The reference's result is the position bias of its event table and the channel input.
  Read from the result back: a batch tiling (`n = 8·b + h` reads head `h`), the heads moved to the front, then at
  `[R, C, 0, h]` the sum of
  * the event table repeated four times along the rows and four times along the columns — `[R / 4, C / 4, 0, h]` —, and
  * the channel table tiled 512 times each way — `[R % 4, C % 4, 0, h]`.
  Every step is a layout operation read at an index; the only arithmetic is the row-major position of an index on the
  two sides of a reshape.
-/
import proofs.«424381_j7791070675400_3_alg».proof.Proof.Gen.ReferenceIdeal.Read
import proofs.«424381_j7791070675400_3_alg».proof.Proof.Spec
import proofs.«424381_j7791070675400_3_alg».proof.Proof.LibRank8
import Idealize.ShloMosaic.Lib.Pipeline.Value
import Idealize.ShloMosaic.Lib.ValueIdx
import Idealize.ShloMosaic.Lib.ValueIdxRank6

set_option maxRecDepth 16384

noncomputable section

namespace Cert.ReferenceIdeal.RefValue

open Idealize.ShloMosaic Idealize.ShloMosaic.ValueIdx
open Cert.ReferenceIdeal Cert.ReferenceIdeal.Gen Cert.ReferenceIdeal.Read Cert.PosBias

variable {F : FTy → Type} [FloatOps F]

abbrev z1 : Fin 1 := ⟨0, Nat.one_pos⟩

/-! ## The channel side: the table under unit axes, broadcast over the events, merged into rows and columns -/

/-- The channel input with unit axes put between its axes, at an index: the two channel coordinates and the head. -/
theorem channels_spread (x1 : (⟨S4x4x1x8, .f32⟩ : BufTy).Contents (Elt F)) (k : S1x4x1x4x1x1x1x8.Idx) :
    val_main_v32 (F := F) x1 k = x1 (ix4 (⟨(k 1).val, (k 1).isLt⟩ : Fin 4) (⟨(k 3).val, (k 3).isLt⟩ : Fin 4) z1 (⟨(k 7).val, (k 7).isLt⟩ : Fin 8)) := by
  unfold val_main_v32
  refine shapeCast_apply _ shapeCasts_S4x4x1x8_S1x4x1x4x1x1x1x8 k _ ?_
  rw [Shape.rowMajor_val_four, Shape.rowMajor_val_eight]
  have h0 : (k 0).val < 1 := (k 0).isLt
  have h2 : (k 2).val < 1 := (k 2).isLt
  have h4 : (k 4).val < 1 := (k 4).isLt
  have h5 : (k 5).val < 1 := (k 5).isLt
  have h6 : (k 6).val < 1 := (k 6).isLt
  show (((k 1).val * 4 + (k 3).val) * 1 + 0) * 8 + (k 7).val
    = (((((((k 0).val * 4 + (k 1).val) * 1 + (k 2).val) * 4 + (k 3).val) * 1 + (k 4).val) * 1 + (k 5).val) * 1 + (k 6).val) * 8 + (k 7).val
  omega

/-- The tiled channel table at a row, a column and a head: the row's and the column's channels. -/
theorem channels_tiled (x1 : (⟨S4x4x1x8, .f32⟩ : BufTy).Contents (Elt F)) (R C : Fin 2048) (h : Fin 8) :
    val_main_v34 (F := F) x1 (ix4 R C z1 h) = x1 (ix4 (channelOf R) (channelOf C) z1 h) := by
  unfold val_main_v34
  refine (shapeCast_apply _ shapeCasts_S512x4x512x4x1x1x1x8_S2048x2048x1x8 (ix4 R C z1 h)
    (ix8 (eventOf R) (channelOf R) (eventOf C) (channelOf C) z1 z1 z1 h) ?_).trans ?_
  · rw [Shape.rowMajor_val_eight, Shape.rowMajor_val_four]
    show ((((((R.val / 4 * 4 + R.val % 4) * 512 + C.val / 4) * 4 + C.val % 4) * 1 + 0) * 1 + 0) * 1 + 0) * 8 + h.val
      = ((R.val * 2048 + C.val) * 1 + 0) * 8 + h.val
    have hR := R.isLt
    have hC := C.isLt
    omega
  refine (val_main_v33_apply x1 _).trans ?_
  refine (channels_spread x1 _).trans ?_
  exact congrArg x1 (ix4_ext rfl rfl rfl rfl)

/-! ## The event side: the table repeated four times along the rows, then along the columns -/

theorem rows_of_heads (R C : Fin 2048) (h : Fin 8) : idx_main_v36 (idx_main_v37 (ix3 h R C)) = ix4 R C z1 h := by
  have hR := R.isLt
  have hC := C.isLt
  have hh := h.isLt
  funext a
  match a with
  | ⟨0, _⟩ => exact Fin.ext (by show ((R.val * 2048 + C.val) * 8 + h.val) / 16384 = R.val; omega)
  | ⟨1, _⟩ => exact Fin.ext (by show ((R.val * 2048 + C.val) * 8 + h.val) / 8 % 2048 = C.val; omega)
  | ⟨2, _⟩ => rfl
  | ⟨3, _⟩ => exact Fin.ext (by show ((R.val * 2048 + C.val) * 8 + h.val) % 8 = h.val; omega)

theorem column_split (R C : Fin 2048) (h : Fin 8) :
    idx_main_v31 (ix4 R C z1 h) = ix5 R (eventOf C) (channelOf C) z1 h := by
  have hR := R.isLt
  have hC := C.isLt
  have hh := h.isLt
  funext a
  match a with
  | ⟨0, _⟩ => exact Fin.ext (by show (((R.val * 2048 + C.val) * 1 + 0) * 8 + h.val) / 16384 = R.val; omega)
  | ⟨1, _⟩ => exact Fin.ext (by show (((R.val * 2048 + C.val) * 1 + 0) * 8 + h.val) / 32 % 512 = C.val / 4; omega)
  | ⟨2, _⟩ => exact Fin.ext (by show (((R.val * 2048 + C.val) * 1 + 0) * 8 + h.val) / 8 % 4 = C.val % 4; omega)
  | ⟨3, _⟩ => rfl
  | ⟨4, _⟩ => exact Fin.ext (by show (((R.val * 2048 + C.val) * 1 + 0) * 8 + h.val) % 8 = h.val; omega)

theorem column_copy (R : Fin 2048) (q : Fin 512) (cq : Fin 4) (h : Fin 8) :
    idx_main_v30 (ix5 R q cq z1 h) = ix4 R q z1 h := by
  funext a
  match a with
  | ⟨0, _⟩ => rfl
  | ⟨1, _⟩ => rfl
  | ⟨2, _⟩ => rfl
  | ⟨3, _⟩ => rfl

theorem row_split (R : Fin 2048) (q : Fin 512) (h : Fin 8) :
    idx_main_v29 (ix4 R q z1 h) = ix5 (eventOf R) (channelOf R) q z1 h := by
  have hR := R.isLt
  have hq := q.isLt
  have hh := h.isLt
  funext a
  match a with
  | ⟨0, _⟩ => exact Fin.ext (by show (((R.val * 512 + q.val) * 1 + 0) * 8 + h.val) / 16384 = R.val / 4; omega)
  | ⟨1, _⟩ => exact Fin.ext (by show (((R.val * 512 + q.val) * 1 + 0) * 8 + h.val) / 4096 % 4 = R.val % 4; omega)
  | ⟨2, _⟩ => exact Fin.ext (by show (((R.val * 512 + q.val) * 1 + 0) * 8 + h.val) / 8 % 512 = q.val; omega)
  | ⟨3, _⟩ => rfl
  | ⟨4, _⟩ => exact Fin.ext (by show (((R.val * 512 + q.val) * 1 + 0) * 8 + h.val) % 8 = h.val; omega)

theorem row_copy (ek : Fin 512) (ck : Fin 4) (q : Fin 512) (h : Fin 8) :
    idx_main_v28 (ix5 ek ck q z1 h) = ix4 ek q z1 h := by
  funext a
  match a with
  | ⟨0, _⟩ => rfl
  | ⟨1, _⟩ => rfl
  | ⟨2, _⟩ => rfl
  | ⟨3, _⟩ => rfl

/-- The expanded event table at a row, a column and a head: the row's and the column's events. -/
theorem events_expanded (x2 x3 : (⟨S512x1x8, .f32⟩ : BufTy).Contents (Elt F)) (R C : Fin 2048) (h : Fin 8) :
    val_main_v31 (F := F) x2 x3 (ix4 R C z1 h) = val_main_v27 (F := F) x2 x3 (ix4 (eventOf R) (eventOf C) z1 h) := by
  refine (val_main_v31_apply x2 x3 _).trans ?_
  rw [column_split]
  refine (val_main_v30_apply x2 x3 _).trans ?_
  rw [column_copy]
  refine (val_main_v29_apply x2 x3 _).trans ?_
  rw [row_split]
  refine (val_main_v28_apply x2 x3 _).trans ?_
  rw [row_copy]

/-! ## The result -/

/-- The reference's result, stage `val_main_v40`, is the position bias of its event table and its channel input. -/
theorem reference_value (x1 : (⟨S4x4x1x8, .f32⟩ : BufTy).Contents (Elt F)) (x2 x3 : (⟨S512x1x8, .f32⟩ : BufTy).Contents (Elt F)) :
    val_main_v40 (F := F) x1 x2 x3 = bias (val_main_v27 (F := F) x2 x3) x1 := by
  funext i
  have h0 : (i 0).val < 32 := (i 0).isLt
  have h1 : (i 1).val < 2048 := (i 1).isLt
  have h2 : (i 2).val < 2048 := (i 2).isLt
  unfold val_main_v40
  refine (shapeCast_apply _ shapeCasts_S4x8x1x2048x1x2048_S32x2048x2048 i
    (ix6 (⟨(i 0).val / 8, by omega⟩ : Fin 4) (⟨(i 0).val % 8, Nat.mod_lt _ (by decide)⟩ : Fin 8) z1
      (⟨(i 1).val, h1⟩ : Fin 2048) z1 (⟨(i 2).val, h2⟩ : Fin 2048)) ?_).trans ?_
  · rw [Shape.rowMajor_val_six, Shape.rowMajor_val_three]
    show (((((i 0).val / 8 * 8 + (i 0).val % 8) * 1 + 0) * 2048 + (i 1).val) * 1 + 0) * 2048 + (i 2).val
      = ((i 0).val * 2048 + (i 1).val) * 2048 + (i 2).val
    omega
  refine (val_main_v39_apply x1 x2 x3 _).trans ?_
  unfold val_main_v38
  refine (shapeCast_apply _ shapeCasts_S8x2048x2048_S1x8x1x2048x1x2048 _
    (ix3 (⟨(i 0).val % 8, Nat.mod_lt _ (by decide)⟩ : Fin 8) (⟨(i 1).val, h1⟩ : Fin 2048) (⟨(i 2).val, h2⟩ : Fin 2048)) ?_).trans ?_
  · rw [Shape.rowMajor_val_three, Shape.rowMajor_val_six]
    show ((i 0).val % 8 * 2048 + (i 1).val) * 2048 + (i 2).val
      = ((((0 * 8 + (i 0).val % 8) * 1 + 0) * 2048 + (i 1).val) * 1 + 0) * 2048 + (i 2).val
    omega
  refine (val_main_v37_apply x1 x2 x3 _).trans ?_
  refine (val_main_v36_apply x1 x2 x3 _).trans ?_
  rw [rows_of_heads]
  refine (val_main_v35_apply x1 x2 x3 _).trans ?_
  rw [events_expanded, channels_tiled]
  rfl

end Cert.ReferenceIdeal.RefValue

end
-- ==== Proof.lean ====
/-
  A relative-position bias, computed two ways.

  From a channel input `ch[ck, cq, 0, h]` and two event inputs, both programs first build ONE event table
  `E[ek, eq, 0, h]` — for `ek > eq` the first event input at row `ek − eq`, otherwise the second at row `eq − ek` (two
  clipped gathers selected by the sign of the difference) — by the same operations in the same order, so the table is a
  common term of the two and is never opened. The result is then, for `n = 8·b + h`, a row `R = 4·ek + ck` and a column
  `C = 4·eq + cq`,

      result[n, R, C] = E[R / 4, C / 4, 0, n % 8] + ch[R % 4, C % 4, 0, n % 8]     (Proof/Spec.lean, `bias`).

  * The reference repeats the table four times along rows and columns, tiles the channel input 512 times each way, adds,
    moves the heads to the front and tiles over the batch (Proof/RefValue.lean).
  * The kernel moves the heads to the front first, repeats the table's columns and tiles the channel columns on the host,
    and on a grid of 8 × 2 × 4 points expands the rows inside each tile — row `r` of a tile reads event row `r / 4` and
    channel row `r % 4` —, adds, and writes the tile to the four batch slots; a reshape merges batch and head
    (Proof/KernelHost.lean, KernelBody.lean, KernelArray.lean, KernelRun.lean).
  Both are layouts of the same two tables joined by one addition: equal index by index with no law of the extended reals,
  so the precondition is not used. The first input (the queries) is read by neither program.
  The ideal pass rewrote nothing, so `preserves` is `True`.
-/
import proofs.«424381_j7791070675400_3_alg».proof.Defs
import proofs.«424381_j7791070675400_3_alg».proof.Proof.Gen.Kernel
import proofs.«424381_j7791070675400_3_alg».proof.Proof.Gen.Kernel.Frame
import proofs.«424381_j7791070675400_3_alg».proof.Proof.Gen.KernelIdeal
import proofs.«424381_j7791070675400_3_alg».proof.Proof.Gen.KernelIdeal.Frame
import proofs.«424381_j7791070675400_3_alg».proof.Proof.Gen.ReferenceIdeal
import proofs.«424381_j7791070675400_3_alg».proof.Proof.Gen.ReferenceIdeal.Run
import proofs.«424381_j7791070675400_3_alg».proof.Proof.Gen.ReferenceIdeal.Read
import proofs.«424381_j7791070675400_3_alg».proof.Proof.Gen.Pre_finite_inputs
import proofs.«424381_j7791070675400_3_alg».proof.Proof.KernelRun
import proofs.«424381_j7791070675400_3_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the position bias of the common event table and the channel input. -/
theorem algebraic : Cert.algebraic_KernelIdeal_ReferenceIdeal := by
  intro m ρ m' ρ' _ hagree
  refine ⟨fun c => Cert.KernelIdeal.KernelValue.result (F := Ideal) m c, Cert.KernelIdeal.KernelValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.RefValue.reference_value,
    (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
